-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x4096 : Shape := ⟨3, ![4, 128, 4096]⟩
abbrev S4x2x2048x4096 : Shape := ⟨4, ![4, 2, 2048, 4096]⟩
abbrev S17408x32 : Shape := ⟨2, ![17408, 32]⟩
abbrev S_ : Shape := ⟨0, ![]⟩

class Facts : Prop where
  bcast_S_S4x128x4096 : S_.BroadcastsInDim S4x128x4096 (![] : Fin 0 → Fin S4x128x4096.rank)
  reducesTo_S4x128x4096_S_d0_1_2 : S4x128x4096.ReducesTo [0, 1, 2] S_
  h_S_ : 0 < S_.numel
  bcast_S_S4x2x2048x4096 : S_.BroadcastsInDim S4x2x2048x4096 (![] : Fin 0 → Fin S4x2x2048x4096.rank)
  reducesTo_S4x2x2048x4096_S_d0_1_2_3 : S4x2x2048x4096.ReducesTo [0, 1, 2, 3] S_
  bcast_S_S17408x32 : S_.BroadcastsInDim S17408x32 (![] : Fin 0 → Fin S17408x32.rank)
  reducesTo_S17408x32_S_d0_1 : S17408x32.ReducesTo [0, 1] S_

variable [Facts]

def fn_part1 {F : FTy → Type} [FloatOps F] (main_v13 : IVec S_ 1) (main_v16 : IVec S17408x32 1) : IVec S_ 1 :=
  let main_c_5 : IVec S_ 1 := constantI S_ 1 1#1
  let main_v17 : IVec S_ 1 := (fun x v => Host.reduce IntOp.andi x v reducesTo_S17408x32_S_d0_1 h_S_) main_v16 main_c_5
  let main_v18 : IVec S_ 1 := andi main_v13 main_v17
  main_v18

def fn {F : FTy → Type} [FloatOps F] (main_arg0 : FVec F S4x128x4096 .f32) (main_arg1 : FVec F S4x2x2048x4096 .f32) (main_arg2 : FVec F S4x128x4096 .f32) (main_arg3 : FVec F S17408x32 .f32) : IVec S_ 1 :=
  let main_v0 : FVec F S4x128x4096 .f32 := Host.absf main_arg0
  let main_cst : FVec F S_ .f32 := constant S_ .f32 0x7F800000#32
  let main_v1 : FVec F S4x128x4096 .f32 := broadcastInDim S4x128x4096 ![] bcast_S_S4x128x4096 main_cst
  let main_v2 : IVec S4x128x4096 1 := cmpf .olt main_v0 main_v1
  let main_c : IVec S_ 1 := constantI S_ 1 1#1
  let main_v3 : IVec S_ 1 := (fun x v => Host.reduce IntOp.andi x v reducesTo_S4x128x4096_S_d0_1_2 h_S_) main_v2 main_c
  let main_v4 : FVec F S4x2x2048x4096 .f32 := Host.absf main_arg1
  let main_cst_0 : FVec F S_ .f32 := constant S_ .f32 0x7F800000#32
  let main_v5 : FVec F S4x2x2048x4096 .f32 := broadcastInDim S4x2x2048x4096 ![] bcast_S_S4x2x2048x4096 main_cst_0
  let main_v6 : IVec S4x2x2048x4096 1 := cmpf .olt main_v4 main_v5
  let main_c_1 : IVec S_ 1 := constantI S_ 1 1#1
  let main_v7 : IVec S_ 1 := (fun x v => Host.reduce IntOp.andi x v reducesTo_S4x2x2048x4096_S_d0_1_2_3 h_S_) main_v6 main_c_1
  let main_v8 : IVec S_ 1 := andi main_v3 main_v7
  let main_v9 : FVec F S4x128x4096 .f32 := Host.absf main_arg2
  let main_cst_2 : FVec F S_ .f32 := constant S_ .f32 0x7F800000#32
  let main_v10 : FVec F S4x128x4096 .f32 := broadcastInDim S4x128x4096 ![] bcast_S_S4x128x4096 main_cst_2
  let main_v11 : IVec S4x128x4096 1 := cmpf .olt main_v9 main_v10
  let main_c_3 : IVec S_ 1 := constantI S_ 1 1#1
  let main_v12 : IVec S_ 1 := (fun x v => Host.reduce IntOp.andi x v reducesTo_S4x128x4096_S_d0_1_2 h_S_) main_v11 main_c_3
  let main_v13 : IVec S_ 1 := andi main_v8 main_v12
  let main_v14 : FVec F S17408x32 .f32 := Host.absf main_arg3
  let main_cst_4 : FVec F S_ .f32 := constant S_ .f32 0x7F800000#32
  let main_v15 : FVec F S17408x32 .f32 := broadcastInDim S17408x32 ![] bcast_S_S17408x32 main_cst_4
  let main_v16 : IVec S17408x32 1 := cmpf .olt main_v14 main_v15
  fn_part1 (F := F) main_v13 main_v16
-- ==== Kernel.lean ====
abbrev S4x128x4096 : Shape := ⟨3, ![4, 128, 4096]⟩
abbrev S4x2x2048x4096 : Shape := ⟨4, ![4, 2, 2048, 4096]⟩
abbrev S17408x32 : Shape := ⟨2, ![17408, 32]⟩
abbrev S4x4352x32 : Shape := ⟨3, ![4, 4352, 32]⟩
abbrev S4x128x32 : Shape := ⟨3, ![4, 128, 32]⟩
abbrev S4x4096x32 : Shape := ⟨3, ![4, 4096, 32]⟩
abbrev S4x2x2048x32 : Shape := ⟨4, ![4, 2, 2048, 32]⟩
abbrev S4x32x128 : Shape := ⟨3, ![4, 32, 128]⟩
abbrev S4x2x32x2048 : Shape := ⟨4, ![4, 2, 32, 2048]⟩
abbrev S32x4096 : Shape := ⟨2, ![32, 4096]⟩
abbrev S1x128x1024 : Shape := ⟨3, ![1, 128, 1024]⟩
abbrev S1x2x2048x1024 : Shape := ⟨4, ![1, 2, 2048, 1024]⟩
abbrev S1x32x128 : Shape := ⟨3, ![1, 32, 128]⟩
abbrev S1x2x32x2048 : Shape := ⟨4, ![1, 2, 32, 2048]⟩
abbrev S32x1024 : Shape := ⟨2, ![32, 1024]⟩
abbrev S32x128 : Shape := ⟨2, ![32, 128]⟩
abbrev S128x1024 : Shape := ⟨2, ![128, 1024]⟩
abbrev S1x1x32x2048 : Shape := ⟨4, ![1, 1, 32, 2048]⟩
abbrev S32x2048 : Shape := ⟨2, ![32, 2048]⟩
abbrev S1x1x2048x1024 : Shape := ⟨4, ![1, 1, 2048, 1024]⟩
abbrev S2048x1024 : Shape := ⟨2, ![2048, 1024]⟩
abbrev S4096x32 : Shape := ⟨2, ![4096, 32]⟩

abbrev nBuf : Space → Nat
  | .hbm => 14
  | .vmem => 14
  | .smem => 0
  | _ => 0

abbrev bufTy : (tb : Table) → Fin (tcTables nBuf tb) → BufTy
  | .hbm, ⟨0, _⟩ => ⟨S4x128x4096, .f32⟩
  | .hbm, ⟨1, _⟩ => ⟨S4x2x2048x4096, .f32⟩
  | .hbm, ⟨2, _⟩ => ⟨S4x128x4096, .f32⟩
  | .hbm, ⟨3, _⟩ => ⟨S17408x32, .f32⟩
  | .hbm, ⟨4, _⟩ => ⟨S4x4352x32, .f32⟩
  | .hbm, ⟨5, _⟩ => ⟨S4x128x32, .f32⟩
  | .hbm, ⟨6, _⟩ => ⟨S4x4096x32, .f32⟩
  | .hbm, ⟨7, _⟩ => ⟨S4x2x2048x32, .f32⟩
  | .hbm, ⟨8, _⟩ => ⟨S4x128x32, .f32⟩
  | .hbm, ⟨9, _⟩ => ⟨S4x32x128, .f32⟩
  | .hbm, ⟨10, _⟩ => ⟨S4x2x32x2048, .f32⟩
  | .hbm, ⟨11, _⟩ => ⟨S4x32x128, .f32⟩
  | .hbm, ⟨12, _⟩ => ⟨S32x4096, .f32⟩
  | .hbm, ⟨13, _⟩ => ⟨S4096x32, .f32⟩
  | .local _ .vmem, ⟨0, _⟩ => ⟨S1x128x1024, .f32⟩
  | .local _ .vmem, ⟨1, _⟩ => ⟨S1x128x1024, .f32⟩
  | .local _ .vmem, ⟨2, _⟩ => ⟨S1x2x2048x1024, .f32⟩
  | .local _ .vmem, ⟨3, _⟩ => ⟨S1x2x2048x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x32x128, .f32⟩
  | .local _ .vmem, ⟨7, _⟩ => ⟨S1x32x128, .f32⟩
  | .local _ .vmem, ⟨8, _⟩ => ⟨S1x2x32x2048, .f32⟩
  | .local _ .vmem, ⟨9, _⟩ => ⟨S1x2x32x2048, .f32⟩
  | .local _ .vmem, ⟨10, _⟩ => ⟨S1x32x128, .f32⟩
  | .local _ .vmem, ⟨11, _⟩ => ⟨S1x32x128, .f32⟩
  | .local _ .vmem, ⟨12, _⟩ => ⟨S32x1024, .f32⟩
  | .local _ .vmem, ⟨13, _⟩ => ⟨S32x1024, .f32⟩
  | _, _ => ⟨S4x128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2x32x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S17408x32_S4x4352x32 : S17408x32.ShapeCasts S4x4352x32
  slices_S4x4352x32_S4x128x32_0_0_0 : S4x4352x32.Slices ![0, 0, 0] S4x128x32
  slices_S4x4352x32_S4x4096x32_0_128_0 : S4x4352x32.Slices ![0, 128, 0] S4x4096x32
  shapeCasts_S4x4096x32_S4x2x2048x32 : S4x4096x32.ShapeCasts S4x2x2048x32
  slices_S4x4352x32_S4x128x32_0_4224_0 : S4x4352x32.Slices ![0, 4224, 0] S4x128x32
  transposes_S4x128x32_S4x32x128_0_2_1 : S4x128x32.Transposes [0, 2, 1] S4x32x128
  transposes_S4x2x2048x32_S4x2x32x2048_0_1_3_2 : S4x2x2048x32.Transposes [0, 1, 3, 2] S4x2x32x2048
  inb_S32x1024_S32x1024_0_0 : ∀ a, (![0, 0] : Fin 2 → Nat) a + S32x1024.size a ≤ S32x1024.size a
  h_S32x1024 : 0 < S32x1024.numel
  inb_S1x32x128_S1x32x128_0_0_0 : ∀ a, (![0, 0, 0] : Fin 3 → Nat) a + S1x32x128.size a ≤ S1x32x128.size a
  h_S1x32x128 : 0 < S1x32x128.numel
  shapeCasts_S1x32x128_S32x128 : S1x32x128.ShapeCasts S32x128
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  inb_S1x2x32x2048_S1x1x32x2048_0_0_0_0 : ∀ a, (![0, 0, 0, 0] : Fin 4 → Nat) a + S1x1x32x2048.size a ≤ S1x2x32x2048.size a
  h_S1x1x32x2048 : 0 < S1x1x32x2048.numel
  shapeCasts_S1x1x32x2048_S32x2048 : S1x1x32x2048.ShapeCasts S32x2048
  inb_S1x2x2048x1024_S1x1x2048x1024_0_0_0_0 : ∀ a, (![0, 0, 0, 0] : Fin 4 → Nat) a + S1x1x2048x1024.size a ≤ S1x2x2048x1024.size a
  h_S1x1x2048x1024 : 0 < S1x1x2048x1024.numel
  shapeCasts_S1x1x2048x1024_S2048x1024 : S1x1x2048x1024.ShapeCasts S2048x1024
  inb_S1x2x32x2048_S1x1x32x2048_0_1_0_0 : ∀ a, (![0, 1, 0, 0] : Fin 4 → Nat) a + S1x1x32x2048.size a ≤ S1x2x32x2048.size a
  inb_S1x2x2048x1024_S1x1x2048x1024_0_1_0_0 : ∀ a, (![0, 1, 0, 0] : Fin 4 → Nat) a + S1x1x2048x1024.size a ≤ S1x2x2048x1024.size a
  shapeCasts_S32x1024_S32x1024 : S32x1024.ShapeCasts S32x1024
  transposes_S32x4096_S4096x32_1_0 : S32x4096.Transposes [1, 0] S4096x32
  dot_S32x128_S128x1024_S32x1024_1_0_0_1_n_n_wf : DotDims.WF S32x128 S128x1024 S32x1024 [1] [0] [0] [1] [] []
  dot_S32x2048_S2048x1024_S32x1024_1_0_0_1_n_n_wf : DotDims.WF S32x2048 S2048x1024 S32x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1024.size a ≤ S4x128x4096.size a
  hwx0_0 : ∀ i : grid0.Coords, EltTy.bits .f32 = 32 ∨ (Rect.block (s := S4x128x4096) S1x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x2048x1024.size a ≤ S4x2x2048x4096.size a
  hwx0_1 : ∀ i : grid0.Coords, EltTy.bits .f32 = 32 ∨ (Rect.block (s := S4x2x2048x4096) S1x2x2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x1024.size a ≤ S4x128x4096.size a
  hwx0_2 : ∀ i : grid0.Coords, EltTy.bits .f32 = 32 ∨ (Rect.block (s := S4x128x4096) S1x128x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x128.size a ≤ S4x32x128.size a
  hwx0_3 : ∀ i : grid0.Coords, EltTy.bits .f32 = 32 ∨ (Rect.block (s := S4x32x128) S1x32x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2x32x2048.size a ≤ S4x2x32x2048.size a
  hwx0_4 : ∀ i : grid0.Coords, EltTy.bits .f32 = 32 ∨ (Rect.block (s := S4x2x32x2048) S1x2x32x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x32x128.size a ≤ S4x32x128.size a
  hwx0_5 : ∀ i : grid0.Coords, EltTy.bits .f32 = 32 ∨ (Rect.block (s := S4x32x128) S1x32x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32x1024.size a ≤ S32x4096.size a
  hwx0_6 : ∀ i : grid0.Coords, EltTy.bits .f32 = 32 ∨ (Rect.block (s := S32x4096) S32x1024.size (cc0_transform_6 i) (hinb0_6 i)).WholeWords (EltTy.packing .f32)

variable [Facts₀]

def dot_S32x128_S128x1024_S32x1024_1_0_0_1_n_n : DotDims S32x128 S128x1024 S32x1024 where
  lhsContracting := [1]
  rhsContracting := [0]
  lhsNonContracting := [0]
  rhsNonContracting := [1]
  lhsBatch := []
  rhsBatch := []
  wf := dot_S32x128_S128x1024_S32x1024_1_0_0_1_n_n_wf
def dot_S32x2048_S2048x1024_S32x1024_1_0_0_1_n_n : DotDims S32x2048 S2048x1024 S32x1024 where
  lhsContracting := [1]
  rhsContracting := [0]
  lhsNonContracting := [0]
  rhsNonContracting := [1]
  lhsBatch := []
  rhsBatch := []
  wf := dot_S32x2048_S2048x1024_S32x1024_1_0_0_1_n_n_wf

abbrev win0_0 : Pipeline.Window sig grid0 :=
  Pipeline.Window.ofSpec (Memref.whole main_arg0) S1x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2x2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x32x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x2x32x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x32x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8) S32x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x128x4096 : Shape := ⟨3, ![4, 128, 4096]⟩
abbrev S4x2x2048x4096 : Shape := ⟨4, ![4, 2, 2048, 4096]⟩
abbrev S17408x32 : Shape := ⟨2, ![17408, 32]⟩
abbrev S4x4096x4096 : Shape := ⟨3, ![4, 4096, 4096]⟩
abbrev S4x4352x4096 : Shape := ⟨3, ![4, 4352, 4096]⟩
abbrev S17408x4096 : Shape := ⟨2, ![17408, 4096]⟩
abbrev S4096x32 : Shape := ⟨2, ![4096, 32]⟩

abbrev nBuf : Space → Nat
  | .hbm => 8
  | .vmem => 0
  | .smem => 0
  | _ => 0

abbrev bufTy : (tb : Table) → Fin (tcTables nBuf tb) → BufTy
  | .hbm, ⟨0, _⟩ => ⟨S4x128x4096, .f32⟩
  | .hbm, ⟨1, _⟩ => ⟨S4x2x2048x4096, .f32⟩
  | .hbm, ⟨2, _⟩ => ⟨S4x128x4096, .f32⟩
  | .hbm, ⟨3, _⟩ => ⟨S17408x32, .f32⟩
  | .hbm, ⟨4, _⟩ => ⟨S4x4096x4096, .f32⟩
  | .hbm, ⟨5, _⟩ => ⟨S4x4352x4096, .f32⟩
  | .hbm, ⟨6, _⟩ => ⟨S17408x4096, .f32⟩
  | .hbm, ⟨7, _⟩ => ⟨S4096x32, .f32⟩
  | _, _ => ⟨S4x128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  shapeCasts_S4x2x2048x4096_S4x4096x4096 : S4x2x2048x4096.ShapeCasts S4x4096x4096
  concatenates_S4x128x4096_S4x4096x4096_S4x128x4096_S4x4352x4096_d1 : Shape.Concatenates [S4x128x4096, S4x4096x4096, S4x128x4096] S4x4352x4096 1
  shapeCasts_S4x4352x4096_S17408x4096 : S4x4352x4096.ShapeCasts S17408x4096
  dot_S17408x4096_S17408x32_S4096x32_0_0_1_1_n_n_wf : DotDims.WF S17408x4096 S17408x32 S4096x32 [0] [0] [1] [1] [] []

variable [Facts₀]

def dot_S17408x4096_S17408x32_S4096x32_0_0_1_1_n_n : DotDims S17408x4096 S17408x32 S4096x32 where
  lhsContracting := [0]
  rhsContracting := [0]
  lhsNonContracting := [1]
  rhsNonContracting := [1]
  lhsBatch := []
  rhsBatch := []
  wf := dot_S17408x4096_S17408x32_S4096x32_0_0_1_1_n_n_wf

class Facts : Prop extends Facts₀ where

variable [Facts]
-- ==== Proof.PiecesIdeal.lean ====
/-
  What one grid point leaves in the output block, read off the two control cases of the body.

  At a point the body multiplies the object's four weight slices (transposed: 32 rows each) into the matching core
  blocks, adds the four products, and adds the result to what the output block held; at the first object of a batch
  tile the block is first reset to zero. So both cases leave ONE function `step` of the six input blocks and of an
  incoming block: the block the point before left (later objects), or the zero block (first object).
-/
import proofs.«175748_j60473139528502_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Body

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Half `h` of the middle-core weight block: its 32 × 2048 slice. -/
abbrev wmHalf0 (x4 : Vec F S1x2x32x2048 .f32) : Vec F S1x1x32x2048 .f32 :=
  View.ld (Val := Elt F) x4 (Rect.unit ![0, 0, 0, 0] S1x1x32x2048.size inb_S1x2x32x2048_S1x1x32x2048_0_0_0_0)
abbrev wmHalf1 (x4 : Vec F S1x2x32x2048 .f32) : Vec F S1x1x32x2048 .f32 :=
  View.ld (Val := Elt F) x4 (Rect.unit ![0, 1, 0, 0] S1x1x32x2048.size inb_S1x2x32x2048_S1x1x32x2048_0_1_0_0)
/-- Half `h` of the middle-core block: its 2048 × 1024 slice. -/
abbrev cmHalf0 (x1 : Vec F S1x2x2048x1024 .f32) : Vec F S1x1x2048x1024 .f32 :=
  View.ld (Val := Elt F) x1 (Rect.unit ![0, 0, 0, 0] S1x1x2048x1024.size inb_S1x2x2048x1024_S1x1x2048x1024_0_0_0_0)
abbrev cmHalf1 (x1 : Vec F S1x2x2048x1024 .f32) : Vec F S1x1x2048x1024 .f32 :=
  View.ld (Val := Elt F) x1 (Rect.unit ![0, 1, 0, 0] S1x1x2048x1024.size inb_S1x2x2048x1024_S1x1x2048x1024_0_1_0_0)

/-- What the body leaves in the output block: the incoming block `acc` plus the four products of this point's
    blocks (first core, the two middle halves, last core). -/
def step (x0 : Vec F S1x128x1024 .f32) (x1 : Vec F S1x2x2048x1024 .f32) (x2 : Vec F S1x128x1024 .f32) (x3 : Vec F S1x32x128 .f32) (x4 : Vec F S1x2x32x2048 .f32) (x5 : Vec F S1x32x128 .f32) (acc : Vec F S32x1024 .f32) : Vec F S32x1024 .f32 :=
  k0_pay1 (k0_pay3 x3 x0 (wmHalf0 x4) (cmHalf0 x1) (wmHalf1 x4) (cmHalf1 x1)) (k0_pay4 x5) (k0_pay5 x2) acc

/-- The zero block a batch tile's first point starts from. -/
abbrev zeroBlock : Vec F S32x1024 .f32 := k0_pay2

/-- A LATER OBJECT's point: the block the point before left, plus this point's products. -/
theorem out_B (c : Dev nD) (i : grid0.Coords) (arg2 : Memref sig .tc .vmem S1x128x1024 .f32) (harg2 : arg2.IsWhole) (arg3 : Memref sig .tc .vmem S1x2x2048x1024 .f32) (harg3 : arg3.IsWhole) (arg4 : Memref sig .tc .vmem S1x128x1024 .f32) (harg4 : arg4.IsWhole) (arg5 : Memref sig .tc .vmem S1x32x128 .f32) (harg5 : arg5.IsWhole) (arg6 : Memref sig .tc .vmem S1x2x32x2048 .f32) (harg6 : arg6.IsWhole) (arg7 : Memref sig .tc .vmem S1x32x128 .f32) (harg7 : arg7.IsWhole) (arg8 : Memref sig .tc .vmem S32x1024 .f32) (harg8 : arg8.IsWhole) (hc0 : ¬cond0_0 i)
    (x0 : Vec F S1x128x1024 .f32) (x1 : Vec F S1x2x2048x1024 .f32) (x2 : Vec F S1x128x1024 .f32) (x3 : Vec F S1x32x128 .f32) (x4 : Vec F S1x2x32x2048 .f32) (x5 : Vec F S1x32x128 .f32) (xo6 : Vec F S32x1024 .f32) :
    out0_B_6 c i arg2 harg2 arg3 harg3 arg4 harg4 arg5 harg5 arg6 harg6 arg7 harg7 arg8 harg8 hc0 x0 x1 x2 x3 x4 x5 xo6 = step x0 x1 x2 x3 x4 x5 xo6 := by
  unfold out0_B_6
  rw [View.read_writes_eq_canon _ _ _ (cover0_B_6 c i arg2 harg2 arg3 harg3 arg4 harg4 arg5 harg5 arg6 harg6 arg7 harg7 arg8 harg8 hc0 x0 x1 x2 x3 x4 x5 xo6)]
  unfold kernelRun0_B
  dsimp only
  sl_unfold_words
  rw [View.canon_unit_zero hz2]
  unfold step
  simp only [View.readAt_eq_ld, harg2.read_unread, harg3.read_unread, harg4.read_unread, harg5.read_unread,
    harg6.read_unread, harg7.read_unread, harg8.read_unread, View.ld_unit_zero (S := S1x32x128) hz3,
    View.ld_unit_zero (S := S1x128x1024) hz3, View.ld_unit_zero (S := S32x1024) hz2]

/-- A batch tile's FIRST point: the block is reset to zero, read back, and this point's products are added. -/
theorem out_A (c : Dev nD) (i : grid0.Coords) (arg2 : Memref sig .tc .vmem S1x128x1024 .f32) (harg2 : arg2.IsWhole) (arg3 : Memref sig .tc .vmem S1x2x2048x1024 .f32) (harg3 : arg3.IsWhole) (arg4 : Memref sig .tc .vmem S1x128x1024 .f32) (harg4 : arg4.IsWhole) (arg5 : Memref sig .tc .vmem S1x32x128 .f32) (harg5 : arg5.IsWhole) (arg6 : Memref sig .tc .vmem S1x2x32x2048 .f32) (harg6 : arg6.IsWhole) (arg7 : Memref sig .tc .vmem S1x32x128 .f32) (harg7 : arg7.IsWhole) (arg8 : Memref sig .tc .vmem S32x1024 .f32) (harg8 : arg8.IsWhole) (hc0 : cond0_0 i)
    (x0 : Vec F S1x128x1024 .f32) (x1 : Vec F S1x2x2048x1024 .f32) (x2 : Vec F S1x128x1024 .f32) (x3 : Vec F S1x32x128 .f32) (x4 : Vec F S1x2x32x2048 .f32) (x5 : Vec F S1x32x128 .f32) :
    out0_A_6 c i arg2 harg2 arg3 harg3 arg4 harg4 arg5 harg5 arg6 harg6 arg7 harg7 arg8 harg8 hc0 x0 x1 x2 x3 x4 x5 = step x0 x1 x2 x3 x4 x5 zeroBlock := by
  unfold out0_A_6
  rw [View.read_writes_eq_canon _ _ _ (cover0_A_6 c i arg2 harg2 arg3 harg3 arg4 harg4 arg5 harg5 arg6 harg6 arg7 harg7 arg8 harg8 hc0 x0 x1 x2 x3 x4 x5)]
  unfold kernelRun0_A
  dsimp only
  sl_unfold_words
  rw [View.canon_cons_unit_zero (S := S32x1024) hz2, View.readCov_unit_zero (S := S32x1024) _ hz2]
  unfold step
  simp only [View.readAt_eq_ld, harg2.read_unread, harg3.read_unread, harg4.read_unread, harg5.read_unread,
    harg6.read_unread, harg7.read_unread, View.ld_unit_zero (S := S1x32x128) hz3,
    View.ld_unit_zero (S := S1x128x1024) hz3]

end Cert.KernelIdeal.Body

end
-- ==== Proof.StepValue.lean ====
/-
  One grid point's contribution, entry by entry, on the extended reals.

  Read at output column `o` and batch column `b` of the block, what a point adds to the incoming block is the sum of
  four dot products of length 128, 2048, 2048 and 128: row `o` of each transposed weight slice against column `b` of
  the matching core block. Each product is a `tpu.matmul` into the zero block, which on the extended reals is exactly
  that finite sum; the blocks' leading unit axes only rename the indices.
-/
import proofs.«175748_j60473139528502_1_alg».proof.Proof.PiecesIdeal
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open scoped BigOperators

namespace Cert.KernelIdeal.Body

open Cert.KernelIdeal Cert.KernelIdeal.Gen

/-! ## The two matrix products at an index -/

theorem lhs128_0 (i : S32x1024.Idx) (q : dot_S32x128_S128x1024_S32x1024_1_0_0_1_n_n.contr.Idx) :
    (dot_S32x128_S128x1024_S32x1024_1_0_0_1_n_n.lhsIdx i q 0).val = (i 0).val := by
  unfold DotDims.lhsIdx
  rw [dif_neg (show ¬(0 : Fin S32x128.rank) ∈ dot_S32x128_S128x1024_S32x1024_1_0_0_1_n_n.lhsBatch by decide), dif_pos (show (0 : Fin S32x128.rank) ∈ dot_S32x128_S128x1024_S32x1024_1_0_0_1_n_n.lhsNonContracting by decide)]
  rfl
theorem lhs128_1 (i : S32x1024.Idx) (q : dot_S32x128_S128x1024_S32x1024_1_0_0_1_n_n.contr.Idx) :
    (dot_S32x128_S128x1024_S32x1024_1_0_0_1_n_n.lhsIdx i q 1).val = (q ⟨0, by decide⟩).val :=
  dot_S32x128_S128x1024_S32x1024_1_0_0_1_n_n.lhsIdx_val_of_single rfl i q
theorem rhs128_0 (i : S32x1024.Idx) (q : dot_S32x128_S128x1024_S32x1024_1_0_0_1_n_n.contr.Idx) :
    (dot_S32x128_S128x1024_S32x1024_1_0_0_1_n_n.rhsIdx i q 0).val = (q ⟨0, by decide⟩).val :=
  dot_S32x128_S128x1024_S32x1024_1_0_0_1_n_n.rhsIdx_val_of_single rfl i q
theorem rhs128_1 (i : S32x1024.Idx) (q : dot_S32x128_S128x1024_S32x1024_1_0_0_1_n_n.contr.Idx) :
    (dot_S32x128_S128x1024_S32x1024_1_0_0_1_n_n.rhsIdx i q 1).val = (i 1).val := by
  unfold DotDims.rhsIdx
  rw [dif_neg (show ¬(1 : Fin S128x1024.rank) ∈ dot_S32x128_S128x1024_S32x1024_1_0_0_1_n_n.rhsBatch by decide), dif_pos (show (1 : Fin S128x1024.rank) ∈ dot_S32x128_S128x1024_S32x1024_1_0_0_1_n_n.rhsNonContracting by decide)]
  rfl

/-- A 32 × 128 by 128 × 1024 product into the zero block, at (o, b): the sum over the 128 rows. -/
theorem mm128 (A : FVec Ideal S32x128 .f32) (B : FVec Ideal S128x1024 .f32) (o : Fin 32) (bb : Fin 1024) :
    matmul dot_S32x128_S128x1024_S32x1024_1_0_0_1_n_n none A B (constant (F := Ideal) S32x1024 .f32 0x00000000#32) (ix2 o bb)
      = ∑ r : Fin 128, A (ix2 o r) * B (ix2 r bb) := by
  simp only [matmul]
  rw [Ideal.matmul_constant_zero_apply, ← Equiv.sum_comp (contrEquiv1 dot_S32x128_S128x1024_S32x1024_1_0_0_1_n_n 128 rfl rfl).symm]
  refine Finset.sum_congr rfl fun k _ => ?_
  have hk := contrEquiv1_symm_val dot_S32x128_S128x1024_S32x1024_1_0_0_1_n_n 128 rfl rfl k
  have el : dot_S32x128_S128x1024_S32x1024_1_0_0_1_n_n.lhsIdx (ix2 o bb) ((contrEquiv1 dot_S32x128_S128x1024_S32x1024_1_0_0_1_n_n 128 rfl rfl).symm k) = ix2 o k := funext fun a => Fin.ext (by
    match a with
    | ⟨0, _⟩ => exact lhs128_0 _ _
    | ⟨1, _⟩ => exact (lhs128_1 _ _).trans hk)
  have er : dot_S32x128_S128x1024_S32x1024_1_0_0_1_n_n.rhsIdx (ix2 o bb) ((contrEquiv1 dot_S32x128_S128x1024_S32x1024_1_0_0_1_n_n 128 rfl rfl).symm k) = ix2 k bb := funext fun a => Fin.ext (by
    match a with
    | ⟨0, _⟩ => exact (rhs128_0 _ _).trans hk
    | ⟨1, _⟩ => exact rhs128_1 _ _)
  rw [el, er]

theorem lhs2048_0 (i : S32x1024.Idx) (q : dot_S32x2048_S2048x1024_S32x1024_1_0_0_1_n_n.contr.Idx) :
    (dot_S32x2048_S2048x1024_S32x1024_1_0_0_1_n_n.lhsIdx i q 0).val = (i 0).val := by
  unfold DotDims.lhsIdx
  rw [dif_neg (show ¬(0 : Fin S32x2048.rank) ∈ dot_S32x2048_S2048x1024_S32x1024_1_0_0_1_n_n.lhsBatch by decide), dif_pos (show (0 : Fin S32x2048.rank) ∈ dot_S32x2048_S2048x1024_S32x1024_1_0_0_1_n_n.lhsNonContracting by decide)]
  rfl
theorem lhs2048_1 (i : S32x1024.Idx) (q : dot_S32x2048_S2048x1024_S32x1024_1_0_0_1_n_n.contr.Idx) :
    (dot_S32x2048_S2048x1024_S32x1024_1_0_0_1_n_n.lhsIdx i q 1).val = (q ⟨0, by decide⟩).val :=
  dot_S32x2048_S2048x1024_S32x1024_1_0_0_1_n_n.lhsIdx_val_of_single rfl i q
theorem rhs2048_0 (i : S32x1024.Idx) (q : dot_S32x2048_S2048x1024_S32x1024_1_0_0_1_n_n.contr.Idx) :
    (dot_S32x2048_S2048x1024_S32x1024_1_0_0_1_n_n.rhsIdx i q 0).val = (q ⟨0, by decide⟩).val :=
  dot_S32x2048_S2048x1024_S32x1024_1_0_0_1_n_n.rhsIdx_val_of_single rfl i q
theorem rhs2048_1 (i : S32x1024.Idx) (q : dot_S32x2048_S2048x1024_S32x1024_1_0_0_1_n_n.contr.Idx) :
    (dot_S32x2048_S2048x1024_S32x1024_1_0_0_1_n_n.rhsIdx i q 1).val = (i 1).val := by
  unfold DotDims.rhsIdx
  rw [dif_neg (show ¬(1 : Fin S2048x1024.rank) ∈ dot_S32x2048_S2048x1024_S32x1024_1_0_0_1_n_n.rhsBatch by decide), dif_pos (show (1 : Fin S2048x1024.rank) ∈ dot_S32x2048_S2048x1024_S32x1024_1_0_0_1_n_n.rhsNonContracting by decide)]
  rfl

/-- A 32 × 2048 by 2048 × 1024 product into the zero block, at (o, b): the sum over the 2048 rows. -/
theorem mm2048 (A : FVec Ideal S32x2048 .f32) (B : FVec Ideal S2048x1024 .f32) (o : Fin 32) (bb : Fin 1024) :
    matmul dot_S32x2048_S2048x1024_S32x1024_1_0_0_1_n_n none A B (constant (F := Ideal) S32x1024 .f32 0x00000000#32) (ix2 o bb)
      = ∑ r : Fin 2048, A (ix2 o r) * B (ix2 r bb) := by
  simp only [matmul]
  rw [Ideal.matmul_constant_zero_apply, ← Equiv.sum_comp (contrEquiv1 dot_S32x2048_S2048x1024_S32x1024_1_0_0_1_n_n 2048 rfl rfl).symm]
  refine Finset.sum_congr rfl fun k _ => ?_
  have hk := contrEquiv1_symm_val dot_S32x2048_S2048x1024_S32x1024_1_0_0_1_n_n 2048 rfl rfl k
  have el : dot_S32x2048_S2048x1024_S32x1024_1_0_0_1_n_n.lhsIdx (ix2 o bb) ((contrEquiv1 dot_S32x2048_S2048x1024_S32x1024_1_0_0_1_n_n 2048 rfl rfl).symm k) = ix2 o k := funext fun a => Fin.ext (by
    match a with
    | ⟨0, _⟩ => exact lhs2048_0 _ _
    | ⟨1, _⟩ => exact (lhs2048_1 _ _).trans hk)
  have er : dot_S32x2048_S2048x1024_S32x1024_1_0_0_1_n_n.rhsIdx (ix2 o bb) ((contrEquiv1 dot_S32x2048_S2048x1024_S32x1024_1_0_0_1_n_n 2048 rfl rfl).symm k) = ix2 k bb := funext fun a => Fin.ext (by
    match a with
    | ⟨0, _⟩ => exact (rhs2048_0 _ _).trans hk
    | ⟨1, _⟩ => exact rhs2048_1 _ _)
  rw [el, er]

/-! ## The blocks without their unit axes -/

/-- A 1 × 32 × 128 weight block viewed 32 × 128. -/
theorem w128_apply (x : Vec Ideal S1x32x128 .f32) (o : Fin 32) (r : Fin 128) :
    shapeCast S32x128 x shapeCasts_S1x32x128_S32x128 (ix2 o r) = x (ix3 (0 : Fin 1) o r) :=
  shapeCast_apply x _ (ix2 o r) (ix3 (0 : Fin 1) o r) (by
    rewrite [Shape.rowMajor_val_three, Shape.rowMajor_val_two]
    show (0 * 32 + o.val) * 128 + r.val = o.val * 128 + r.val
    omega)

/-- A 1 × 128 × 1024 core block viewed 128 × 1024. -/
theorem c128_apply (x : Vec Ideal S1x128x1024 .f32) (r : Fin 128) (bb : Fin 1024) :
    shapeCast S128x1024 x shapeCasts_S1x128x1024_S128x1024 (ix2 r bb) = x (ix3 (0 : Fin 1) r bb) :=
  shapeCast_apply x _ (ix2 r bb) (ix3 (0 : Fin 1) r bb) (by
    rewrite [Shape.rowMajor_val_three, Shape.rowMajor_val_two]
    show (0 * 128 + r.val) * 1024 + bb.val = r.val * 1024 + bb.val
    omega)

/-- A 1 × 1 × 32 × 2048 weight slice viewed 32 × 2048. -/
theorem w2048_apply (x : Vec Ideal S1x1x32x2048 .f32) (o : Fin 32) (r : Fin 2048) :
    shapeCast S32x2048 x shapeCasts_S1x1x32x2048_S32x2048 (ix2 o r) = x (ix4 (0 : Fin 1) (0 : Fin 1) o r) :=
  shapeCast_apply x _ (ix2 o r) (ix4 (0 : Fin 1) (0 : Fin 1) o r) (by
    rewrite [Shape.rowMajor_val_four, Shape.rowMajor_val_two]
    show ((0 * 1 + 0) * 32 + o.val) * 2048 + r.val = o.val * 2048 + r.val
    omega)

/-- A 1 × 1 × 2048 × 1024 core slice viewed 2048 × 1024. -/
theorem c2048_apply (x : Vec Ideal S1x1x2048x1024 .f32) (r : Fin 2048) (bb : Fin 1024) :
    shapeCast S2048x1024 x shapeCasts_S1x1x2048x1024_S2048x1024 (ix2 r bb) = x (ix4 (0 : Fin 1) (0 : Fin 1) r bb) :=
  shapeCast_apply x _ (ix2 r bb) (ix4 (0 : Fin 1) (0 : Fin 1) r bb) (by
    rewrite [Shape.rowMajor_val_four, Shape.rowMajor_val_two]
    show ((0 * 1 + 0) * 2048 + r.val) * 1024 + bb.val = r.val * 1024 + bb.val
    omega)

/-- The two halves of the middle weight block, at an index. -/
theorem wmHalf0_apply (x4 : Vec Ideal S1x2x32x2048 .f32) (o : Fin 32) (r : Fin 2048) :
    wmHalf0 x4 (ix4 (0 : Fin 1) (0 : Fin 1) o r) = x4 (ix4 (0 : Fin 1) (0 : Fin 2) o r) :=
  congrArg x4 (funext fun a => Fin.ext (by
    match a with
    | ⟨0, _⟩ => rfl
    | ⟨1, _⟩ => rfl
    | ⟨2, _⟩ => show 0 + 1 * o.val = o.val; omega
    | ⟨3, _⟩ => show 0 + 1 * r.val = r.val; omega))
theorem wmHalf1_apply (x4 : Vec Ideal S1x2x32x2048 .f32) (o : Fin 32) (r : Fin 2048) :
    wmHalf1 x4 (ix4 (0 : Fin 1) (0 : Fin 1) o r) = x4 (ix4 (0 : Fin 1) (1 : Fin 2) o r) :=
  congrArg x4 (funext fun a => Fin.ext (by
    match a with
    | ⟨0, _⟩ => rfl
    | ⟨1, _⟩ => rfl
    | ⟨2, _⟩ => show 0 + 1 * o.val = o.val; omega
    | ⟨3, _⟩ => show 0 + 1 * r.val = r.val; omega))
/-- The two halves of the middle core block, at an index. -/
theorem cmHalf0_apply (x1 : Vec Ideal S1x2x2048x1024 .f32) (r : Fin 2048) (bb : Fin 1024) :
    cmHalf0 x1 (ix4 (0 : Fin 1) (0 : Fin 1) r bb) = x1 (ix4 (0 : Fin 1) (0 : Fin 2) r bb) :=
  congrArg x1 (funext fun a => Fin.ext (by
    match a with
    | ⟨0, _⟩ => rfl
    | ⟨1, _⟩ => rfl
    | ⟨2, _⟩ => show 0 + 1 * r.val = r.val; omega
    | ⟨3, _⟩ => show 0 + 1 * bb.val = bb.val; omega))
theorem cmHalf1_apply (x1 : Vec Ideal S1x2x2048x1024 .f32) (r : Fin 2048) (bb : Fin 1024) :
    cmHalf1 x1 (ix4 (0 : Fin 1) (0 : Fin 1) r bb) = x1 (ix4 (0 : Fin 1) (1 : Fin 2) r bb) :=
  congrArg x1 (funext fun a => Fin.ext (by
    match a with
    | ⟨0, _⟩ => rfl
    | ⟨1, _⟩ => rfl
    | ⟨2, _⟩ => show 0 + 1 * r.val = r.val; omega
    | ⟨3, _⟩ => show 0 + 1 * bb.val = bb.val; omega))

/-! ## The point's contribution -/

/-- What a point adds at (o, b): the four dot products, first core, middle cores, last core. -/
def pointVal (x0 : Vec Ideal S1x128x1024 .f32) (x1 : Vec Ideal S1x2x2048x1024 .f32) (x2 : Vec Ideal S1x128x1024 .f32)
    (x3 : Vec Ideal S1x32x128 .f32) (x4 : Vec Ideal S1x2x32x2048 .f32) (x5 : Vec Ideal S1x32x128 .f32)
    (o : Fin 32) (bb : Fin 1024) : EReal :=
  ((∑ r : Fin 128, x3 (ix3 (0 : Fin 1) o r) * x0 (ix3 (0 : Fin 1) r bb)
      + ∑ r : Fin 2048, x4 (ix4 (0 : Fin 1) (0 : Fin 2) o r) * x1 (ix4 (0 : Fin 1) (0 : Fin 2) r bb))
    + ∑ r : Fin 2048, x4 (ix4 (0 : Fin 1) (1 : Fin 2) o r) * x1 (ix4 (0 : Fin 1) (1 : Fin 2) r bb))
  + ∑ r : Fin 128, x5 (ix3 (0 : Fin 1) o r) * x2 (ix3 (0 : Fin 1) r bb)

/-- THE STEP AT AN INDEX: the incoming block's entry plus the point's contribution. -/
theorem step_apply (x0 : Vec Ideal S1x128x1024 .f32) (x1 : Vec Ideal S1x2x2048x1024 .f32) (x2 : Vec Ideal S1x128x1024 .f32)
    (x3 : Vec Ideal S1x32x128 .f32) (x4 : Vec Ideal S1x2x32x2048 .f32) (x5 : Vec Ideal S1x32x128 .f32)
    (acc : Vec Ideal S32x1024 .f32) (o : Fin 32) (bb : Fin 1024) :
    step x0 x1 x2 x3 x4 x5 acc (ix2 o bb) = acc (ix2 o bb) + pointVal x0 x1 x2 x3 x4 x5 o bb := by
  unfold step k0_pay1 k0_pay3 k0_pay4 k0_pay5 pointVal
  simp only [addf_apply, shapeCast_self]
  rw [mm128, mm2048, mm2048, mm128]
  refine congrArg (acc (ix2 o bb) + ·) ?_
  refine congrArg₂ (· + ·) (congrArg₂ (· + ·) (congrArg₂ (· + ·) ?_ ?_) ?_) ?_
  · exact Finset.sum_congr rfl fun r _ => congrArg₂ (· * ·) (w128_apply x3 o r) (c128_apply x0 r bb)
  · exact Finset.sum_congr rfl fun r _ => congrArg₂ (· * ·) ((w2048_apply (wmHalf0 x4) o r).trans (wmHalf0_apply x4 o r))
      ((c2048_apply (cmHalf0 x1) r bb).trans (cmHalf0_apply x1 r bb))
  · exact Finset.sum_congr rfl fun r _ => congrArg₂ (· * ·) ((w2048_apply (wmHalf1 x4) o r).trans (wmHalf1_apply x4 o r))
      ((c2048_apply (cmHalf1 x1) r bb).trans (cmHalf1_apply x1 r bb))
  · exact Finset.sum_congr rfl fun r _ => congrArg₂ (· * ·) (w128_apply x5 o r) (c128_apply x2 r bb)

/-- The zero block is zero everywhere. -/
theorem zeroBlock_apply (j : S32x1024.Idx) : (zeroBlock (F := Ideal)) j = 0 := by
  show Ideal.ofBits .f32 0x00000000#32 = 0
  exact Ideal.ofBits_zero_f32

end Cert.KernelIdeal.Body

end
-- ==== Proof.Spec.lean ====
/-
  The arithmetic of the row layout, with no program in sight.

  The weight matrix has 17408 = 4 · 4352 rows: one block of 4352 rows per object, and inside a block the rows of the
  first core (128), of the two middle cores (2048 each) and of the last core (128), in that order. A sum over all
  17408 rows is therefore the sum, object by object, of four partial sums, one per core — in any additive commutative
  monoid, so in particular on the extended reals, where no finiteness is needed: only the associativity of `+` and
  the order of the rows inside the total are used.
-/
import Idealize.ShloMosaic.PureOps.Ideal
import Mathlib.Algebra.BigOperators.Fin

noncomputable section

open scoped BigOperators

namespace TTRows

/-- Row `r` of object `c`'s first core. -/
def rowF (c : Fin 4) (r : Fin 128) : Fin 17408 := ⟨c.val * 4352 + r.val, by have := c.isLt; have := r.isLt; omega⟩
/-- Row `r` of object `c`'s middle core number `h`. -/
def rowM (c : Fin 4) (h : Fin 2) (r : Fin 2048) : Fin 17408 :=
  ⟨c.val * 4352 + 128 + h.val * 2048 + r.val, by have := c.isLt; have := h.isLt; have := r.isLt; omega⟩
/-- Row `r` of object `c`'s last core. -/
def rowL (c : Fin 4) (r : Fin 128) : Fin 17408 := ⟨c.val * 4352 + 4224 + r.val, by have := c.isLt; have := r.isLt; omega⟩

theorem rowF_val (c : Fin 4) (r : Fin 128) : (rowF c r).val = c.val * 4352 + r.val := rfl
theorem rowM_val (c : Fin 4) (h : Fin 2) (r : Fin 2048) : (rowM c h r).val = c.val * 4352 + 128 + h.val * 2048 + r.val := rfl
theorem rowL_val (c : Fin 4) (r : Fin 128) : (rowL c r).val = c.val * 4352 + 4224 + r.val := rfl

variable {M : Type*} [AddCommMonoid M]

/-- A sum over `Fin n`, `n = a + b`, is the sum over the first `a` indices plus the sum over the last `b`. -/
theorem sum_fin_split {n : ℕ} (a b : ℕ) (h : n = a + b) (f : Fin n → M) :
    ∑ i, f i = ∑ i : Fin a, f ⟨i.val, by have := i.isLt; omega⟩ + ∑ j : Fin b, f ⟨a + j.val, by have := j.isLt; omega⟩ := by
  subst h
  rw [Fin.sum_univ_add]
  rfl

/-- Object `c`'s share of a sum over the rows: its four cores' partial sums, in the order the rows come. -/
def obj (f : Fin 17408 → M) (c : Fin 4) : M :=
  ((∑ r : Fin 128, f (rowF c r) + ∑ r : Fin 2048, f (rowM c 0 r)) + ∑ r : Fin 2048, f (rowM c 1 r)) + ∑ r : Fin 128, f (rowL c r)

/-- One object's 4352 rows, core by core. -/
theorem sum_block (g : Fin 4352 → M) :
    ∑ j, g j = ((∑ r : Fin 128, g ⟨r.val, by have := r.isLt; omega⟩ + ∑ r : Fin 2048, g ⟨128 + r.val, by have := r.isLt; omega⟩)
      + ∑ r : Fin 2048, g ⟨2176 + r.val, by have := r.isLt; omega⟩) + ∑ r : Fin 128, g ⟨4224 + r.val, by have := r.isLt; omega⟩ := by
  rw [sum_fin_split 4224 128 rfl g, sum_fin_split 2176 2048 rfl (fun i : Fin 4224 => g ⟨i.val, _⟩),
    sum_fin_split 128 2048 rfl (fun i : Fin 2176 => g ⟨i.val, _⟩)]

/-- Object `c`'s rows are the 4352 rows from `c · 4352` on. -/
theorem obj_eq (f : Fin 17408 → M) (c : Fin 4) :
    obj f c = ∑ j : Fin 4352, f ⟨c.val * 4352 + j.val, by have := c.isLt; have := j.isLt; omega⟩ := by
  rw [sum_block]
  unfold obj
  refine congrArg₂ (· + ·) (congrArg₂ (· + ·) (congrArg₂ (· + ·) ?_ ?_) ?_) ?_ <;>
    refine Finset.sum_congr rfl fun r _ => congrArg f (Fin.ext ?_)
  · rfl
  · show c.val * 4352 + 128 + 0 * 2048 + r.val = c.val * 4352 + (128 + r.val)
    omega
  · show c.val * 4352 + 128 + 1 * 2048 + r.val = c.val * 4352 + (2176 + r.val)
    omega
  · show c.val * 4352 + 4224 + r.val = c.val * 4352 + (4224 + r.val)
    omega

/-- THE ROW LAYOUT: a sum over all 17408 rows is the objects' shares added in order, starting from zero. -/
theorem sum_rows (f : Fin 17408 → M) : ∑ i, f i = (((0 + obj f 0) + obj f 1) + obj f 2) + obj f 3 := by
  rw [obj_eq, obj_eq, obj_eq, obj_eq, zero_add,
    sum_fin_split 13056 4352 rfl f, sum_fin_split 8704 4352 rfl (fun i : Fin 13056 => f ⟨i.val, _⟩),
    sum_fin_split 4352 4352 rfl (fun i : Fin 8704 => f ⟨i.val, _⟩)]
  refine congrArg₂ (· + ·) (congrArg₂ (· + ·) (congrArg₂ (· + ·) ?_ ?_) ?_) ?_ <;>
    refine Finset.sum_congr rfl fun j _ => congrArg f (Fin.ext ?_)
  · show j.val = 0 * 4352 + j.val
    omega
  · show 4352 + j.val = 1 * 4352 + j.val
    omega
  · show 8704 + j.val = 2 * 4352 + j.val
    omega
  · show 13056 + j.val = 3 * 4352 + j.val
    omega

/-! ## The contraction, object by object -/

/-- Object `c`'s share of the contraction: weights (one output column, `W`) times the cores' entries (one batch column:
    `cf`, `cm`, `cl`), core by core. -/
def objVal (W : Fin 17408 → EReal) (cf : Fin 4 → Fin 128 → EReal) (cm : Fin 4 → Fin 2 → Fin 2048 → EReal)
    (cl : Fin 4 → Fin 128 → EReal) (c : Fin 4) : EReal :=
  ((∑ r : Fin 128, W (rowF c r) * cf c r + ∑ r : Fin 2048, W (rowM c 0 r) * cm c 0 r)
    + ∑ r : Fin 2048, W (rowM c 1 r) * cm c 1 r) + ∑ r : Fin 128, W (rowL c r) * cl c r

/-- The whole contraction: the objects' shares added in order, starting from zero. -/
def totalVal (W : Fin 17408 → EReal) (cf : Fin 4 → Fin 128 → EReal) (cm : Fin 4 → Fin 2 → Fin 2048 → EReal)
    (cl : Fin 4 → Fin 128 → EReal) : EReal :=
  (((0 + objVal W cf cm cl 0) + objVal W cf cm cl 1) + objVal W cf cm cl 2) + objVal W cf cm cl 3

/-- A contraction over all 17408 rows of a column `I` that holds the cores' entries row block by row block (`hF`,
    `hM`, `hL`) is the objects' shares in order: the product commutes, the sum is regrouped. -/
theorem sum_eq_totalVal (W I : Fin 17408 → EReal) (cf : Fin 4 → Fin 128 → EReal) (cm : Fin 4 → Fin 2 → Fin 2048 → EReal)
    (cl : Fin 4 → Fin 128 → EReal) (hF : ∀ c r, I (rowF c r) = cf c r) (hM : ∀ c h r, I (rowM c h r) = cm c h r)
    (hL : ∀ c r, I (rowL c r) = cl c r) : ∑ i, I i * W i = totalVal W cf cm cl := by
  rw [sum_rows]
  unfold totalVal obj objVal
  simp only [hF, hM, hL, mul_comm (W _)]

end TTRows

end
-- ==== Proof.HostPre.lean ====
/-
  The weights as the region finds them.

  Before the region the weight matrix (17408 × 32) is viewed per object (4 × 4352 × 32), cut into the rows of the first
  core, of the two middle cores (viewed 2 × 2048) and of the last core, and each piece is transposed so that the 32
  output columns come before the rows. Read at an index each of the three arrays is one entry of the weight matrix:
  output column `o` of row `rowF k r`, `rowM k h r` or `rowL k r`.
-/
import proofs.«175748_j60473139528502_1_alg».proof.Proof.Gen.KernelIdeal.Frame
import proofs.«175748_j60473139528502_1_alg».proof.Proof.Spec
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx TTRows

namespace Cert.KernelIdeal.Weights

open Cert.KernelIdeal Cert.KernelIdeal.Gen

variable {F : FTy → Type} [FloatOps F]
variable (m : (ℓ : Loc nD τ sig) → Buf (Elt F) ℓ)

/-- The weight matrix, per object. -/
abbrev perObject (c : Dev nD) : S4x4352x32.Idx → Elt F .f32 :=
  shapeCast S4x4352x32 (m ((c : Thread nD τ).loc main_arg3)) shapeCasts_S17408x32_S4x4352x32

/-- The per-object view at (object, row in the object's block, column) is the matrix at (that row of the 17408, column). -/
theorem perObject_apply (c : Dev nD) (k : Fin 4) (j : Fin 4352) (o : Fin 32) (i : Fin 17408) (hi : i.val = k.val * 4352 + j.val) :
    perObject m c (ix3 k j o) = m ((c : Thread nD τ).loc main_arg3) (ix2 i o) := by
  refine shapeCast_apply _ _ (ix3 k j o) (ix2 i o) ?_
  rewrite [Shape.rowMajor_val_two, Shape.rowMajor_val_three]
  show i.val * 32 + o.val = (k.val * 4352 + j.val) * 32 + o.val
  rw [hi]

/-- The first cores' weights, transposed, as the region finds them: the host operations' term. -/
theorem first_term (c : Dev nD) : (V m c main_v5 : S4x32x128.Idx → Elt F .f32)
    = transpose S4x32x128 [0, 2, 1] (extractStridedSlice S4x128x32 ![0, 0, 0] (perObject m c) slices_S4x4352x32_S4x128x32_0_0_0)
        transposes_S4x128x32_S4x32x128_0_2_1 := by
  show StableHlo.after hostOps0 (fun b => m (c, b)) (Proc.devRef .tc main_v5) = _
  after_results; rfl

/-- The last cores' weights, transposed, as the region finds them. -/
theorem last_term (c : Dev nD) : (V m c main_v7 : S4x32x128.Idx → Elt F .f32)
    = transpose S4x32x128 [0, 2, 1] (extractStridedSlice S4x128x32 ![0, 4224, 0] (perObject m c) slices_S4x4352x32_S4x128x32_0_4224_0)
        transposes_S4x128x32_S4x32x128_0_2_1 := by
  show StableHlo.after hostOps0 (fun b => m (c, b)) (Proc.devRef .tc main_v7) = _
  after_results; rfl

/-- The middle cores' weights, viewed per core and transposed, as the region finds them. -/
theorem mid_term (c : Dev nD) : (V m c main_v6 : S4x2x32x2048.Idx → Elt F .f32)
    = transpose S4x2x32x2048 [0, 1, 3, 2] (shapeCast S4x2x2048x32
        (extractStridedSlice S4x4096x32 ![0, 128, 0] (perObject m c) slices_S4x4352x32_S4x4096x32_0_128_0)
        shapeCasts_S4x4096x32_S4x2x2048x32) transposes_S4x2x2048x32_S4x2x32x2048_0_1_3_2 := by
  show StableHlo.after hostOps0 (fun b => m (c, b)) (Proc.devRef .tc main_v6) = _
  after_results; rfl

/-- Entry (object `k`, column `o`, row `r`) of the first cores' transposed weights. -/
theorem first_apply (c : Dev nD) (k : Fin 4) (o : Fin 32) (r : Fin 128) :
    V m c main_v5 (ix3 k o r) = m ((c : Thread nD τ).loc main_arg3) (ix2 (rowF k r) o) := by
  have hk := k.isLt; have hr := r.isLt
  rw [first_term]
  refine (transpose_apply _ _ _ (ix3 k o r) (ix3 k r o) (fun b => ?_)).trans ?_
  · match b with
    | ⟨0, _⟩ => rfl
    | ⟨1, _⟩ => rfl
    | ⟨2, _⟩ => rfl
  refine (extractStridedSlice_apply _ _ _ (ix3 k r o) (ix3 k (⟨r.val, by omega⟩ : Fin 4352) o) (fun a => ?_)).trans ?_
  · match a with
    | ⟨0, _⟩ => show k.val = 0 + k.val; omega
    | ⟨1, _⟩ => show r.val = 0 + r.val; omega
    | ⟨2, _⟩ => show o.val = 0 + o.val; omega
  exact perObject_apply m c k _ o (rowF k r) rfl

/-- Entry (object `k`, column `o`, row `r`) of the last cores' transposed weights. -/
theorem last_apply (c : Dev nD) (k : Fin 4) (o : Fin 32) (r : Fin 128) :
    V m c main_v7 (ix3 k o r) = m ((c : Thread nD τ).loc main_arg3) (ix2 (rowL k r) o) := by
  have hk := k.isLt; have hr := r.isLt
  rw [last_term]
  refine (transpose_apply _ _ _ (ix3 k o r) (ix3 k r o) (fun b => ?_)).trans ?_
  · match b with
    | ⟨0, _⟩ => rfl
    | ⟨1, _⟩ => rfl
    | ⟨2, _⟩ => rfl
  refine (extractStridedSlice_apply _ _ _ (ix3 k r o) (ix3 k (⟨4224 + r.val, by omega⟩ : Fin 4352) o) (fun a => ?_)).trans ?_
  · match a with
    | ⟨0, _⟩ => show k.val = 0 + k.val; omega
    | ⟨1, _⟩ => show 4224 + r.val = 4224 + r.val; rfl
    | ⟨2, _⟩ => show o.val = 0 + o.val; omega
  exact perObject_apply m c k _ o (rowL k r) (by show k.val * 4352 + 4224 + r.val = k.val * 4352 + (4224 + r.val); omega)

/-- Entry (object `k`, middle core `h`, column `o`, row `r`) of the middle cores' transposed weights. -/
theorem mid_apply (c : Dev nD) (k : Fin 4) (h : Fin 2) (o : Fin 32) (r : Fin 2048) :
    V m c main_v6 (ix4 k h o r) = m ((c : Thread nD τ).loc main_arg3) (ix2 (rowM k h r) o) := by
  have hk := k.isLt; have hh := h.isLt; have hr := r.isLt; have ho := o.isLt
  rw [mid_term]
  refine (transpose_apply _ _ _ (ix4 k h o r) (ix4 k h r o) (fun b => ?_)).trans ?_
  · match b with
    | ⟨0, _⟩ => rfl
    | ⟨1, _⟩ => rfl
    | ⟨2, _⟩ => rfl
    | ⟨3, _⟩ => rfl
  refine (shapeCast_apply _ _ (ix4 k h r o) (ix3 k (⟨h.val * 2048 + r.val, by omega⟩ : Fin 4096) o) ?_).trans ?_
  · rewrite [Shape.rowMajor_val_three, Shape.rowMajor_val_four]
    show (k.val * 4096 + (h.val * 2048 + r.val)) * 32 + o.val = ((k.val * 2 + h.val) * 2048 + r.val) * 32 + o.val
    omega
  refine (extractStridedSlice_apply _ _ _ (ix3 k (⟨h.val * 2048 + r.val, by omega⟩ : Fin 4096) o)
    (ix3 k (⟨128 + (h.val * 2048 + r.val), by omega⟩ : Fin 4352) o) (fun a => ?_)).trans ?_
  · match a with
    | ⟨0, _⟩ => show k.val = 0 + k.val; omega
    | ⟨1, _⟩ => show 128 + (h.val * 2048 + r.val) = 128 + (h.val * 2048 + r.val); rfl
    | ⟨2, _⟩ => show o.val = 0 + o.val; omega
  exact perObject_apply m c k _ o (rowM k h r) (by
    show k.val * 4352 + 128 + h.val * 2048 + r.val = k.val * 4352 + (128 + (h.val * 2048 + r.val)); omega)

end Cert.KernelIdeal.Weights

end
-- ==== Proof.Acc.lean ====
/-
  The output block, point by point.

  The grid runs over batch tiles (1024 columns each) and, inside a tile, over the four objects. At point `t` the body
  sees object `t % 4`'s cores restricted to the tile's columns and that object's transposed weight slices; what it adds
  at output column `o` and tile column `b` is that object's share of the contraction at batch column
  `(t / 4) · 1024 + b`. The first object of a tile starts from zero, so after object `j` the block holds the shares of
  objects `0 … j` added in order: by induction on the point.
-/
import proofs.«175748_j60473139528502_1_alg».proof.Proof.StepValue
import proofs.«175748_j60473139528502_1_alg».proof.Proof.HostPre

noncomputable section

open Idealize.ShloMosaic Idealize.ShloMosaic.TcCoe Idealize.SL.Sem Idealize.ShloMosaic.ValueIdx TTRows
open scoped BigOperators

namespace Cert.KernelIdeal.Acc

open Cert.KernelIdeal Cert.KernelIdeal.Gen Cert.KernelIdeal.Body Cert.KernelIdeal.Weights

variable (m : (ℓ : Loc nD τ sig) → Buf (Elt Ideal) ℓ)

/-- The printed index maps, decided over the grid: the object is the point modulo 4, the batch tile the point over 4. -/
theorem idx_facts : ∀ t : Fin cfg0.N,
    (win0_0.index t (0 : Fin 3) = t.val % 4 ∧ win0_0.index t (1 : Fin 3) = 0 ∧ win0_0.index t (2 : Fin 3) = t.val / 4)
    ∧ (win0_1.index t (0 : Fin 4) = t.val % 4 ∧ win0_1.index t (1 : Fin 4) = 0 ∧ win0_1.index t (2 : Fin 4) = 0 ∧ win0_1.index t (3 : Fin 4) = t.val / 4)
    ∧ (win0_2.index t (0 : Fin 3) = t.val % 4 ∧ win0_2.index t (1 : Fin 3) = 0 ∧ win0_2.index t (2 : Fin 3) = t.val / 4)
    ∧ (win0_3.index t (0 : Fin 3) = t.val % 4 ∧ win0_3.index t (1 : Fin 3) = 0 ∧ win0_3.index t (2 : Fin 3) = 0)
    ∧ (win0_4.index t (0 : Fin 4) = t.val % 4 ∧ win0_4.index t (1 : Fin 4) = 0 ∧ win0_4.index t (2 : Fin 4) = 0 ∧ win0_4.index t (3 : Fin 4) = 0)
    ∧ (win0_5.index t (0 : Fin 3) = t.val % 4 ∧ win0_5.index t (1 : Fin 3) = 0 ∧ win0_5.index t (2 : Fin 3) = 0)
    ∧ (win0_6.index t (0 : Fin 2) = 0 ∧ win0_6.index t (1 : Fin 2) = t.val / 4) :=
  (by decide +kernel : ∀ t : Fin grid0.N, _)

/-! ## Each input block is its array read at the object's rows and the tile's columns -/

theorem blk0_apply (c : Dev nD) (t : Fin cfg0.N) (r : Fin 128) (bb : Fin 1024) (k : Fin 4) (col : Fin 4096) (hk : k.val = t.val % 4) (hcol : col.val = t.val / 4 * 1024 + bb.val) :
    iblk m c 0 t (ix3 (0 : Fin 1) r bb) = V m c main_arg0 (ix3 k r col) := by
  obtain ⟨f0, f1, f2, f3, f4, f5, f6⟩ := idx_facts t
  unfold iblk
  rw [View.read_apply]
  show V m c main_arg0 _ = V m c main_arg0 _
  congr 1
  funext a; apply Fin.ext
  match a with
  | ⟨0, _⟩ => show win0_0.index t (0 : Fin 3) * 1 + 1 * 0 = k.val; omega
  | ⟨1, _⟩ => show win0_0.index t (1 : Fin 3) * 128 + 1 * r.val = r.val; omega
  | ⟨2, _⟩ => show win0_0.index t (2 : Fin 3) * 1024 + 1 * bb.val = col.val; omega

theorem blk1_apply (c : Dev nD) (t : Fin cfg0.N) (h : Fin 2) (r : Fin 2048) (bb : Fin 1024) (k : Fin 4) (col : Fin 4096) (hk : k.val = t.val % 4) (hcol : col.val = t.val / 4 * 1024 + bb.val) :
    iblk m c 1 t (ix4 (0 : Fin 1) h r bb) = V m c main_arg1 (ix4 k h r col) := by
  obtain ⟨f0, f1, f2, f3, f4, f5, f6⟩ := idx_facts t
  unfold iblk
  rw [View.read_apply]
  show V m c main_arg1 _ = V m c main_arg1 _
  congr 1
  funext a; apply Fin.ext
  match a with
  | ⟨0, _⟩ => show win0_1.index t (0 : Fin 4) * 1 + 1 * 0 = k.val; omega
  | ⟨1, _⟩ => show win0_1.index t (1 : Fin 4) * 2 + 1 * h.val = h.val; omega
  | ⟨2, _⟩ => show win0_1.index t (2 : Fin 4) * 2048 + 1 * r.val = r.val; omega
  | ⟨3, _⟩ => show win0_1.index t (3 : Fin 4) * 1024 + 1 * bb.val = col.val; omega

theorem blk2_apply (c : Dev nD) (t : Fin cfg0.N) (r : Fin 128) (bb : Fin 1024) (k : Fin 4) (col : Fin 4096) (hk : k.val = t.val % 4) (hcol : col.val = t.val / 4 * 1024 + bb.val) :
    iblk m c 2 t (ix3 (0 : Fin 1) r bb) = V m c main_arg2 (ix3 k r col) := by
  obtain ⟨f0, f1, f2, f3, f4, f5, f6⟩ := idx_facts t
  unfold iblk
  rw [View.read_apply]
  show V m c main_arg2 _ = V m c main_arg2 _
  congr 1
  funext a; apply Fin.ext
  match a with
  | ⟨0, _⟩ => show win0_2.index t (0 : Fin 3) * 1 + 1 * 0 = k.val; omega
  | ⟨1, _⟩ => show win0_2.index t (1 : Fin 3) * 128 + 1 * r.val = r.val; omega
  | ⟨2, _⟩ => show win0_2.index t (2 : Fin 3) * 1024 + 1 * bb.val = col.val; omega

theorem blk3_apply (c : Dev nD) (t : Fin cfg0.N) (o : Fin 32) (r : Fin 128) (k : Fin 4) (hk : k.val = t.val % 4) :
    iblk m c 3 t (ix3 (0 : Fin 1) o r) = V m c main_v5 (ix3 k o r) := by
  obtain ⟨f0, f1, f2, f3, f4, f5, f6⟩ := idx_facts t
  unfold iblk
  rw [View.read_apply]
  show V m c main_v5 _ = V m c main_v5 _
  congr 1
  funext a; apply Fin.ext
  match a with
  | ⟨0, _⟩ => show win0_3.index t (0 : Fin 3) * 1 + 1 * 0 = k.val; omega
  | ⟨1, _⟩ => show win0_3.index t (1 : Fin 3) * 32 + 1 * o.val = o.val; omega
  | ⟨2, _⟩ => show win0_3.index t (2 : Fin 3) * 128 + 1 * r.val = r.val; omega

theorem blk4_apply (c : Dev nD) (t : Fin cfg0.N) (h : Fin 2) (o : Fin 32) (r : Fin 2048) (k : Fin 4) (hk : k.val = t.val % 4) :
    iblk m c 4 t (ix4 (0 : Fin 1) h o r) = V m c main_v6 (ix4 k h o r) := by
  obtain ⟨f0, f1, f2, f3, f4, f5, f6⟩ := idx_facts t
  unfold iblk
  rw [View.read_apply]
  show V m c main_v6 _ = V m c main_v6 _
  congr 1
  funext a; apply Fin.ext
  match a with
  | ⟨0, _⟩ => show win0_4.index t (0 : Fin 4) * 1 + 1 * 0 = k.val; omega
  | ⟨1, _⟩ => show win0_4.index t (1 : Fin 4) * 2 + 1 * h.val = h.val; omega
  | ⟨2, _⟩ => show win0_4.index t (2 : Fin 4) * 32 + 1 * o.val = o.val; omega
  | ⟨3, _⟩ => show win0_4.index t (3 : Fin 4) * 2048 + 1 * r.val = r.val; omega

theorem blk5_apply (c : Dev nD) (t : Fin cfg0.N) (o : Fin 32) (r : Fin 128) (k : Fin 4) (hk : k.val = t.val % 4) :
    iblk m c 5 t (ix3 (0 : Fin 1) o r) = V m c main_v7 (ix3 k o r) := by
  obtain ⟨f0, f1, f2, f3, f4, f5, f6⟩ := idx_facts t
  unfold iblk
  rw [View.read_apply]
  show V m c main_v7 _ = V m c main_v7 _
  congr 1
  funext a; apply Fin.ext
  match a with
  | ⟨0, _⟩ => show win0_5.index t (0 : Fin 3) * 1 + 1 * 0 = k.val; omega
  | ⟨1, _⟩ => show win0_5.index t (1 : Fin 3) * 32 + 1 * o.val = o.val; omega
  | ⟨2, _⟩ => show win0_5.index t (2 : Fin 3) * 128 + 1 * r.val = r.val; omega

/-! ## A point's contribution is its object's share -/

/-- Object `j % 4`'s share of the contraction at output column `o` and batch column `b`, of the arguments as launched. -/
def colObj (c : Dev nD) (o : Fin 32) (b : Fin 4096) (j : ℕ) : EReal :=
  objVal (fun i => m ((c : Thread nD τ).loc main_arg3) (ix2 i o)) (fun k r => m ((c : Thread nD τ).loc main_arg0) (ix3 k r b))
    (fun k h r => m ((c : Thread nD τ).loc main_arg1) (ix4 k h r b)) (fun k r => m ((c : Thread nD τ).loc main_arg2) (ix3 k r b))
    ⟨j % 4, Nat.mod_lt _ (by decide)⟩

theorem colObj_mod (c : Dev nD) (o : Fin 32) (b : Fin 4096) (j : ℕ) : colObj m c o b (j % 4) = colObj m c o b j := by
  unfold colObj
  congr 1
  exact Fin.ext (Nat.mod_mod _ _)

/-- What point `t` adds at (o, b) is object `t % 4`'s share at the tile's column. -/
theorem point_eq (c : Dev nD) (t : Fin cfg0.N) (o : Fin 32) (bb : Fin 1024) (col : Fin 4096)
    (hcol : col.val = t.val / 4 * 1024 + bb.val) :
    pointVal (iblk m c 0 t) (iblk m c 1 t) (iblk m c 2 t) (iblk m c 3 t) (iblk m c 4 t) (iblk m c 5 t) o bb
      = colObj m c o col t.val := by
  unfold pointVal colObj objVal
  refine congrArg₂ (· + ·) (congrArg₂ (· + ·) (congrArg₂ (· + ·) ?_ ?_) ?_) ?_
  · exact Finset.sum_congr rfl fun r _ => congrArg₂ (· * ·)
      ((blk3_apply m c t o r ⟨t.val % 4, Nat.mod_lt _ (by decide)⟩ rfl).trans (first_apply m c _ o r))
      ((blk0_apply m c t r bb ⟨t.val % 4, Nat.mod_lt _ (by decide)⟩ col rfl hcol).trans (congrFun (V_main_arg0 m c) _))
  · exact Finset.sum_congr rfl fun r _ => congrArg₂ (· * ·)
      ((blk4_apply m c t 0 o r ⟨t.val % 4, Nat.mod_lt _ (by decide)⟩ rfl).trans (mid_apply m c _ 0 o r))
      ((blk1_apply m c t 0 r bb ⟨t.val % 4, Nat.mod_lt _ (by decide)⟩ col rfl hcol).trans (congrFun (V_main_arg1 m c) _))
  · exact Finset.sum_congr rfl fun r _ => congrArg₂ (· * ·)
      ((blk4_apply m c t 1 o r ⟨t.val % 4, Nat.mod_lt _ (by decide)⟩ rfl).trans (mid_apply m c _ 1 o r))
      ((blk1_apply m c t 1 r bb ⟨t.val % 4, Nat.mod_lt _ (by decide)⟩ col rfl hcol).trans (congrFun (V_main_arg1 m c) _))
  · exact Finset.sum_congr rfl fun r _ => congrArg₂ (· * ·)
      ((blk5_apply m c t o r ⟨t.val % 4, Nat.mod_lt _ (by decide)⟩ rfl).trans (last_apply m c _ o r))
      ((blk2_apply m c t r bb ⟨t.val % 4, Nat.mod_lt _ (by decide)⟩ col rfl hcol).trans (congrFun (V_main_arg2 m c) _))

/-! ## The running sum -/

/-- The shares `g 0 … g j` added in order, starting from zero. -/
def accVal (g : ℕ → EReal) : ℕ → EReal
  | 0 => 0 + g 0
  | j + 1 => accVal g j + g (j + 1)

/-- The batch column of tile column `bb` at point `n`. -/
def colOf (n : ℕ) (h : n < cfg0.N) (bb : Fin 1024) : Fin 4096 :=
  ⟨n / 4 * 1024 + bb.val, by have hN : cfg0.N = 16 := N_0; have := bb.isLt; omega⟩

/-- THE INVARIANT: after point `n` the output block holds, at (o, b), the shares of objects `0 … n % 4` at the tile's
    column, added in order. -/
theorem outsAt_apply (c : Dev nD) : ∀ (n : ℕ) (h : n < cfg0.N) (o : Fin 32) (bb : Fin 1024),
    outsAt0 m c n h (ix2 o bb) = accVal (colObj m c o (colOf n h bb)) (n % 4)
  | 0, h, o, bb => by
    refine (congrFun ((outsAt0_A m c ⟨0, h⟩ rfl).trans (out_A ..)) (ix2 o bb)).trans ?_
    rw [step_apply, zeroBlock_apply, point_eq m c ⟨0, h⟩ o bb (colOf 0 h bb) rfl]
    rfl
  | n + 1, h, o, bb => by
    have hN : cfg0.N = 16 := N_0
    by_cases h0 : (n + 1) % 4 = 0
    · refine (congrFun ((outsAt0_A m c ⟨n + 1, h⟩ h0).trans (out_A ..)) (ix2 o bb)).trans ?_
      rw [step_apply, zeroBlock_apply, point_eq m c ⟨n + 1, h⟩ o bb (colOf (n + 1) h bb) rfl]
      show 0 + colObj m c o (colOf (n + 1) h bb) (n + 1) = accVal (colObj m c o (colOf (n + 1) h bb)) ((n + 1) % 4)
      rw [h0, ← colObj_mod m c o _ (n + 1), h0]
      rfl
    · refine (congrFun ((outsAt0_B m c ⟨n + 1, h⟩ h0).trans (out_B ..)) (ix2 o bb)).trans ?_
      rw [step_apply, point_eq m c ⟨n + 1, h⟩ o bb (colOf (n + 1) h bb) rfl]
      show outsAt0 m c n (Nat.lt_of_succ_lt h) (ix2 o bb) + colObj m c o (colOf (n + 1) h bb) (n + 1)
        = accVal (colObj m c o (colOf (n + 1) h bb)) ((n + 1) % 4)
      rw [outsAt_apply c n (Nat.lt_of_succ_lt h) o bb]
      have hcol : colOf n (Nat.lt_of_succ_lt h) bb = colOf (n + 1) h bb :=
        Fin.ext (by show n / 4 * 1024 + bb.val = (n + 1) / 4 * 1024 + bb.val; omega)
      have hmod : (n + 1) % 4 = n % 4 + 1 := by omega
      rw [hcol, hmod, ← colObj_mod m c o _ (n + 1), hmod]
      rfl

end Cert.KernelIdeal.Acc

end
-- ==== Proof.Final.lean ====
/-
  The result array, and the run.

  Only a batch tile's last point writes its block back (object 3: the block then holds all four shares), and the four
  tiles' blocks are the four column ranges of the 32 × 4096 array: so after the region the array holds, at output
  column `o` and batch column `b`, the whole contraction. The one host operation after the region transposes it into
  the result, 4096 × 32.
-/
import proofs.«175748_j60473139528502_1_alg».proof.Proof.Acc
import Idealize.ShloMosaic.Lib.StableHlo.Run

noncomputable section

open Idealize.ShloMosaic Idealize.ShloMosaic.TcCoe Idealize.SL.Sem Idealize.ShloMosaic.ValueIdx TTRows
open Idealize.ShloMosaic.Pipeline (Dat)
open scoped BigOperators

namespace Cert.KernelIdeal.Result

open Cert.KernelIdeal Cert.KernelIdeal.Gen Cert.KernelIdeal.Body Cert.KernelIdeal.Weights Cert.KernelIdeal.Acc

variable (m : (ℓ : Loc nD τ sig) → Buf (Elt Ideal) ℓ) (ρ : Dev nD → PrngReg)

/-- The contraction at output column `o` and batch column `b`, of the arguments as launched. -/
def contraction (c : Dev nD) (o : Fin 32) (b : Fin 4096) : EReal :=
  totalVal (fun i => m ((c : Thread nD τ).loc main_arg3) (ix2 i o)) (fun k r => m ((c : Thread nD τ).loc main_arg0) (ix3 k r b))
    (fun k h r => m ((c : Thread nD τ).loc main_arg1) (ix4 k h r b)) (fun k r => m ((c : Thread nD τ).loc main_arg2) (ix3 k r b))

/-- All four objects' shares in order are the contraction. -/
theorem accVal_three (c : Dev nD) (o : Fin 32) (b : Fin 4096) : accVal (colObj m c o b) 3 = contraction m c o b := rfl

/-- What the region's output array ends holding: output columns by batch columns. -/
def outFn (c : Dev nD) : S32x4096.Idx → EReal := fun i => contraction m c (i 0) (i 1)
abbrev outArr (c : Dev nD) : Buf (Elt Ideal) ((c : Thread nD τ).loc main_v8) := outFn m c

/-- A tile's last point writes back the tile's block of the contraction. -/
theorem flushed_eq (c : Dev nD) (t : Fin cfg0.N) (hf : (cfg0.win 6).flush t = true) :
    (dats m 0 c).flushed 6 t = ((cfg0.win 6).blk t).view.read (Elt Ideal) (outArr m c) := by
  have h3 : t.val % 4 = 3 := (flush0_6 t).mp hf
  obtain ⟨-, -, -, -, -, -, e0, e1⟩ := idx_facts t
  show (cfg0.win 6).cut (grid0.coords t) ((dats m 0 c).after 6 t) = _
  rw [after0_6]
  have key : ∀ j : S32x1024.Idx, outsAt0 m c t.val t.isLt j = outFn m c (((cfg0.win 6).blk t).view.emb j) := by
    intro j
    obtain ⟨o, bb, rfl⟩ : ∃ (o : Fin 32) (bb : Fin 1024), j = ix2 o bb := ⟨j 0, j 1, eq_ix2 j⟩
    have hemb : ((cfg0.win 6).blk t).view.emb (ix2 o bb) = ix2 o (colOf t.val t.isLt bb) := by
      funext a; apply Fin.ext
      match a with
      | ⟨0, _⟩ => show win0_6.index t (0 : Fin 2) * 32 + 1 * o.val = o.val; omega
      | ⟨1, _⟩ => show win0_6.index t (1 : Fin 2) * 1024 + 1 * bb.val = t.val / 4 * 1024 + bb.val; omega
    rw [hemb, outsAt_apply, h3, accVal_three]
    rfl
  exact funext key

/-- An index of the array is in point `t`'s block iff each coordinate is in the block's range on its axis. -/
theorem mem_blk (t : Fin cfg0.N) (i : S32x4096.Idx) :
    i ∈ ((cfg0.win 6).blk t).view.set ↔ ∀ a : Fin 2, win0_6.index t a * S32x1024.size a ≤ (i a).val
      ∧ (i a).val < win0_6.index t a * S32x1024.size a + S32x1024.size a := by
  show i ∈ ((View.whole main_v8).slice (win0_6.rect t)).set ↔ _
  rw [View.set_slice_whole, Rect.mem_set_unit]
  exact Iff.rfl

/-- Every entry of the array is in the block some tile's last point writes back: batch column `b` is in tile `b / 1024`. -/
theorem covered (i : S32x4096.Idx) : ∃ t : Fin cfg0.N, (cfg0.win 6).flush t = true ∧ i ∈ ((cfg0.win 6).blk t).view.set := by
  have hN : cfg0.N = 16 := N_0
  have hi0 : (i 0).val < 32 := (i 0).isLt
  have hi1 : (i 1).val < 4096 := (i 1).isLt
  obtain ⟨t, ht⟩ : ∃ t : Fin cfg0.N, t.val = (i 1).val / 1024 * 4 + 3 := ⟨⟨(i 1).val / 1024 * 4 + 3, by omega⟩, rfl⟩
  obtain ⟨-, -, -, -, -, -, e0, e1⟩ := idx_facts t
  refine ⟨t, (flush0_6 t).mpr (by omega), ?_⟩
  rw [mem_blk]
  intro a
  match a with
  | ⟨0, _⟩ => show win0_6.index t (0 : Fin 2) * 32 ≤ (i 0).val ∧ (i 0).val < win0_6.index t (0 : Fin 2) * 32 + 32; omega
  | ⟨1, _⟩ => show win0_6.index t (1 : Fin 2) * 1024 ≤ (i 1).val ∧ (i 1).val < win0_6.index t (1 : Fin 2) * 1024 + 1024; omega

/-- THE ARRAY after the region: the contraction, output columns by batch columns. -/
theorem final (c : Dev nD) : (dats m 0 c).arrAt 6 cfg0.N = outArr m c :=
  (dats m 0 c).arrAt_eq_of_cover 6 (outArr m c) (flushed_eq m c) covered

/-- The result: batch columns by output columns. -/
def resFn (c : Dev nD) : S4096x32.Idx → EReal := fun i => contraction m c (i 1) (i 0)
abbrev result (c : Dev nD) : Buf (Elt Ideal) ((c : Thread nD τ).loc main_v9) := resFn m c

/-- The host operation after the region transposes the array into the result. -/
theorem tail_eq (c : Dev nD) : Pipeline.afterTail₀ cfgs (dats m) 0 (V0 m) [hostOps1] c main_v9 = result m c := by
  unfold Pipeline.afterTail₀
  show StableHlo.after hostOps1 _ (Proc.devRef .tc main_v9) = _
  after_results
  have hw : Pipeline.withArrays (cfgs 0).spec c (V0 m c) (fun w => (dats m 0 c).arrAt w (cfgs 0).N) (Proc.tc.devRef main_v8)
      = outArr m c := (Pipeline.withArrays_arr spec0 launch0.win.arr_inj c _ _ 6).trans (final m c)
  rw [hw]
  funext i
  obtain ⟨b, o, rfl⟩ : ∃ (b : Fin 4096) (o : Fin 32), i = ix2 b o := ⟨i 0, i 1, eq_ix2 i⟩
  refine (transpose_apply _ _ _ (ix2 b o) (ix2 o b) (fun a => ?_)).trans rfl
  match a with
  | ⟨0, _⟩ => rfl
  | ⟨1, _⟩ => rfl

/-- THE RUN, READ: every weakly fair execution ends with the result at the contraction and the arguments unchanged. -/
theorem run : θ_run defs (onTc (τ := τ) (main (F := Ideal))) ⟨m, fun _ => 0, ρ⟩ fun r => ∀ c : Dev nD,
      r.2.mem ((c.tc : Thread nD τ).loc main_v9) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v9 (Pipeline.mem_restRefs_of main_v9 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.Result

end
-- ==== Proof.RefRows.lean ====
/-
  The reference's big operand, row by row.

  The reference lays the cores out as one 17408 × 4096 matrix: per object the first core's 128 rows, then the two middle
  cores' 2048 rows each (a reshape of [2, 2048] to 4096), then the last core's 128 rows; the objects' blocks of 4352 rows
  follow one another (a second reshape). Read at row `rowF c r`, `rowM c h r` or `rowL c r` that matrix is the
  matching core's entry, and the reference's result is the contraction of that matrix with the weights: the objects'
  shares in order (`TTRows.totalVal`).
-/
import proofs.«175748_j60473139528502_1_alg».proof.Proof.Gen.ReferenceIdeal.Read
import proofs.«175748_j60473139528502_1_alg».proof.Proof.Spec
import Idealize.ShloMosaic.Lib.Pipeline.Value
import Idealize.ShloMosaic.Lib.ValueIdx

noncomputable section

open Idealize.ShloMosaic Idealize.ShloMosaic.ValueIdx TTRows
open scoped BigOperators

namespace Cert.ReferenceIdeal.Rows

open Cert.ReferenceIdeal Cert.ReferenceIdeal.Gen Cert.ReferenceIdeal.Read

variable {F : FTy → Type} [FloatOps F]
variable (x0 : (⟨S4x128x4096, .f32⟩ : BufTy).Contents (Elt F)) (x1 : (⟨S4x2x2048x4096, .f32⟩ : BufTy).Contents (Elt F))
  (x2 : (⟨S4x128x4096, .f32⟩ : BufTy).Contents (Elt F))

/-- A row of an object's first core. -/
theorem row_first (c : Fin 4) (r : Fin 128) (b : Fin 4096) :
    val_main_v2 (F := F) x0 x1 x2 (ix2 (rowF c r) b) = x0 (ix3 c r b) := by
  rw [val_main_v2_apply]
  unfold val_main_v1
  refine concatenate_apply_piece (α := Elt F .f32) (t := S4x4352x4096) 1 [⟨S4x128x4096, x0⟩, ⟨S4x4096x4096, val_main_v0 (F := F) x1⟩, ⟨S4x128x4096, x2⟩] _ _ 0 (by show (0 : ℕ) < 3; decide) S4x128x4096 x0 rfl rfl 0 rfl (ix3 c r b) (fun a ha => ?_) ?_
  · have hc := c.isLt; have hr := r.isLt; have hb := b.isLt
    match a, ha with
    | ⟨0, _⟩, _ => show c.val = ((c.val * 4352 + r.val) * 4096 + b.val) / 17825792; omega
    | ⟨1, _⟩, ha => exact absurd rfl ha
    | ⟨2, _⟩, _ => show b.val = ((c.val * 4352 + r.val) * 4096 + b.val) % 4096; omega
  · have hc := c.isLt; have hr := r.isLt; have hb := b.isLt
    show 0 + r.val = ((c.val * 4352 + r.val) * 4096 + b.val) / 4096 % 4352
    omega

/-- A row of an object's last core. -/
theorem row_last (c : Fin 4) (r : Fin 128) (b : Fin 4096) :
    val_main_v2 (F := F) x0 x1 x2 (ix2 (rowL c r) b) = x2 (ix3 c r b) := by
  rw [val_main_v2_apply]
  unfold val_main_v1
  refine concatenate_apply_piece (α := Elt F .f32) (t := S4x4352x4096) 1 [⟨S4x128x4096, x0⟩, ⟨S4x4096x4096, val_main_v0 (F := F) x1⟩, ⟨S4x128x4096, x2⟩] _ _ 2 (by show (2 : ℕ) < 3; decide) S4x128x4096 x2 rfl rfl 4224 rfl (ix3 c r b) (fun a ha => ?_) ?_
  · have hc := c.isLt; have hr := r.isLt; have hb := b.isLt
    match a, ha with
    | ⟨0, _⟩, _ => show c.val = ((c.val * 4352 + 4224 + r.val) * 4096 + b.val) / 17825792; omega
    | ⟨1, _⟩, ha => exact absurd rfl ha
    | ⟨2, _⟩, _ => show b.val = ((c.val * 4352 + 4224 + r.val) * 4096 + b.val) % 4096; omega
  · have hc := c.isLt; have hr := r.isLt; have hb := b.isLt
    show 4224 + r.val = ((c.val * 4352 + 4224 + r.val) * 4096 + b.val) / 4096 % 4352
    omega

/-- A row of an object's middle core number `h`: the 4096 middle rows are the two cores' 2048 rows, one after the other. -/
theorem row_mid (c : Fin 4) (h : Fin 2) (r : Fin 2048) (b : Fin 4096) :
    val_main_v2 (F := F) x0 x1 x2 (ix2 (rowM c h r) b) = x1 (ix4 c h r b) := by
  have hc := c.isLt; have hh := h.isLt; have hr := r.isLt; have hb := b.isLt
  rw [val_main_v2_apply]
  unfold val_main_v1
  refine (concatenate_apply_piece (α := Elt F .f32) (t := S4x4352x4096) 1 [⟨S4x128x4096, x0⟩, ⟨S4x4096x4096, val_main_v0 (F := F) x1⟩, ⟨S4x128x4096, x2⟩] _ _ 1 (by show (1 : ℕ) < 3; decide) S4x4096x4096 (val_main_v0 (F := F) x1) rfl rfl 128 rfl
    (ix3 c (⟨h.val * 2048 + r.val, by omega⟩ : Fin 4096) b) (fun a ha => ?_) ?_).trans ?_
  · match a, ha with
    | ⟨0, _⟩, _ => show c.val = ((c.val * 4352 + 128 + h.val * 2048 + r.val) * 4096 + b.val) / 17825792; omega
    | ⟨1, _⟩, ha => exact absurd rfl ha
    | ⟨2, _⟩, _ => show b.val = ((c.val * 4352 + 128 + h.val * 2048 + r.val) * 4096 + b.val) % 4096; omega
  · show 128 + (h.val * 2048 + r.val) = ((c.val * 4352 + 128 + h.val * 2048 + r.val) * 4096 + b.val) / 4096 % 4352
    omega
  · rw [val_main_v0_apply]
    refine congrArg x1 (funext fun a => Fin.ext ?_)
    match a with
    | ⟨0, _⟩ => show ((c.val * 4096 + (h.val * 2048 + r.val)) * 4096 + b.val) / 16777216 = c.val; omega
    | ⟨1, _⟩ => show ((c.val * 4096 + (h.val * 2048 + r.val)) * 4096 + b.val) / 8388608 % 2 = h.val; omega
    | ⟨2, _⟩ => show ((c.val * 4096 + (h.val * 2048 + r.val)) * 4096 + b.val) / 4096 % 2048 = r.val; omega
    | ⟨3, _⟩ => show ((c.val * 4096 + (h.val * 2048 + r.val)) * 4096 + b.val) % 4096 = b.val; omega

/-- THE REFERENCE'S VALUE at batch column `b` and output column `o`: the objects' shares of the contraction, in order. -/
theorem value (y0 : (⟨S4x128x4096, .f32⟩ : BufTy).Contents (Elt Ideal)) (y1 : (⟨S4x2x2048x4096, .f32⟩ : BufTy).Contents (Elt Ideal))
    (y2 : (⟨S4x128x4096, .f32⟩ : BufTy).Contents (Elt Ideal)) (y3 : (⟨S17408x32, .f32⟩ : BufTy).Contents (Elt Ideal))
    (b : Fin 4096) (o : Fin 32) :
    val_main_v3 (F := Ideal) y0 y1 y2 y3 (ix2 b o)
      = totalVal (fun i => y3 (ix2 i o)) (fun c r => y0 (ix3 c r b)) (fun c h r => y1 (ix4 c h r b)) (fun c r => y2 (ix3 c r b)) := by
  rw [val_main_v3_apply]
  have el : ∀ k : Fin 17408, lidx_main_v3 (ix2 b o) k = ix2 k b := fun k => funext fun a => Fin.ext (by
    match a with
    | ⟨0, _⟩ => rfl
    | ⟨1, _⟩ => rfl)
  have er : ∀ k : Fin 17408, ridx_main_v3 (ix2 b o) k = ix2 k o := fun k => funext fun a => Fin.ext (by
    match a with
    | ⟨0, _⟩ => rfl
    | ⟨1, _⟩ => rfl)
  simp only [el, er]
  exact sum_eq_totalVal (fun i => y3 (ix2 i o)) (fun i => val_main_v2 (F := Ideal) y0 y1 y2 (ix2 i b)) _ _ _
    (fun c r => row_first y0 y1 y2 c r b) (fun c h r => row_mid y0 y1 y2 c h r b) (fun c r => row_last y0 y1 y2 c r b)

end Cert.ReferenceIdeal.Rows

end
-- ==== Proof.lean ====
/-
  The certificate: a tensor-train input layer — per object the four cores' rows (128 + 2048 + 2048 + 128), stacked to
  17408 rows, contracted with a 17408 × 32 weight matrix over 4096 batch columns — computed by a Pallas kernel that
  never builds the stacked matrix, against the reference that does.

  The kernel runs over 4 batch tiles × 4 objects. At a point it multiplies the object's four transposed weight slices
  into the object's four core blocks (restricted to the tile's 1024 columns) and accumulates the four products into the
  tile's 32 × 1024 output block, which is zeroed at the tile's first object and written back after its last; a final
  transpose gives the 4096 × 32 result. The reference concatenates the cores into the 17408 × 4096 matrix and takes one
  `dot_general` with the weights.

  On the extended reals both are, at batch column `b` and output column `o`, the sum over all 17408 rows of weight times
  core entry: the kernel's order of summation (object by object, core by core, from zero) is a regrouping of the
  reference's single sum (`TTRows.sum_rows`), and the products commute. Only the associativity and commutativity of `+`
  and the commutativity of `·` are used, which hold at the infinities too, so the precondition (finite inputs) is never
  opened.

  The three frames are the generated ones (the reference's is its generated run with the result dropped); the ideal pass
  rewrote nothing, so `preserves` is `True`.
-/
import proofs.«175748_j60473139528502_1_alg».proof.Defs
import proofs.«175748_j60473139528502_1_alg».proof.Proof.Gen.Kernel
import proofs.«175748_j60473139528502_1_alg».proof.Proof.Gen.Kernel.Skeleton
import proofs.«175748_j60473139528502_1_alg».proof.Proof.Gen.Kernel.Launch
import proofs.«175748_j60473139528502_1_alg».proof.Proof.Gen.Kernel.Points
import proofs.«175748_j60473139528502_1_alg».proof.Proof.Gen.Kernel.Frame
import proofs.«175748_j60473139528502_1_alg».proof.Proof.Gen.KernelIdeal
import proofs.«175748_j60473139528502_1_alg».proof.Proof.Gen.KernelIdeal.Skeleton
import proofs.«175748_j60473139528502_1_alg».proof.Proof.Gen.KernelIdeal.Launch
import proofs.«175748_j60473139528502_1_alg».proof.Proof.Gen.KernelIdeal.Points
import proofs.«175748_j60473139528502_1_alg».proof.Proof.Gen.KernelIdeal.Frame
import proofs.«175748_j60473139528502_1_alg».proof.Proof.Gen.ReferenceIdeal
import proofs.«175748_j60473139528502_1_alg».proof.Proof.Gen.Pre_finite_inputs
import proofs.«175748_j60473139528502_1_alg».proof.Proof.Gen.ReferenceIdeal.Run
import proofs.«175748_j60473139528502_1_alg».proof.Proof.Gen.ReferenceIdeal.Read
import proofs.«175748_j60473139528502_1_alg».proof.Proof.Final
import proofs.«175748_j60473139528502_1_alg».proof.Proof.RefRows
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the contraction: the kernel's array transposed (its run, read), the reference's
    `dot_general` of the stacked matrix (its generated run, read row block by row block), of arguments that agree. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2, Cert.ReferenceIdeal.Read.val_main_v3_eq]
  funext i
  obtain ⟨b, o, rfl⟩ : ∃ (b : Fin 4096) (o : Fin 32), i = ix2 b o := ⟨i 0, i 1, eq_ix2 i⟩
  exact (Cert.ReferenceIdeal.Rows.value _ _ _ _ b o).trans rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
